-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096x4096 .f32) (main_arg3 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S12288x4096 : Shape := ⟨2, ![12288, 4096]⟩
abbrev S8192x4096 : Shape := ⟨2, ![8192, 4096]⟩
abbrev S8192x12288 : Shape := ⟨2, ![8192, 12288]⟩
abbrev S512x2048 : Shape := ⟨2, ![512, 2048]⟩
abbrev S1024x2048 : Shape := ⟨2, ![1024, 2048]⟩
abbrev S512x1024 : Shape := ⟨2, ![512, 1024]⟩
abbrev S4x2048x12288 : Shape := ⟨3, ![4, 2048, 12288]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S12288x4096, .f32⟩
  | .hbm, ⟨5, _⟩ => ⟨S8192x4096, .f32⟩
  | .hbm, ⟨6, _⟩ => ⟨S8192x12288, .f32⟩
  | .hbm, ⟨7, _⟩ => ⟨S4x2048x12288, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S1024x2048, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 12, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  concatenates_S4096x4096_S4096x4096_S4096x4096_S12288x4096_d0 : Shape.Concatenates [S4096x4096, S4096x4096, S4096x4096] S12288x4096 0
  shapeCasts_S4x2048x4096_S8192x4096 : S4x2048x4096.ShapeCasts S8192x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S8192x12288_S4x2048x12288 : S8192x12288.ShapeCasts S4x2048x12288
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .f32 = 32 ∨ (Rect.block (s := S8192x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S12288x4096.size a
  hwx0_1 : ∀ i : grid0.Coords, EltTy.bits .f32 = 32 ∨ (Rect.block (s := S12288x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x12288.size a
  hwx0_2 : ∀ i : grid0.Coords, EltTy.bits .f32 = 32 ∨ (Rect.block (s := S8192x12288) S512x1024.size (cc0_transform_2 i) (hinb0_2 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S12288x4096 : Shape := ⟨2, ![12288, 4096]⟩
abbrev S4x2048x12288 : Shape := ⟨3, ![4, 2048, 12288]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S12288x4096, .f32⟩
  | .hbm, ⟨5, _⟩ => ⟨S4x2048x12288, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S4096x4096_S4096x4096_S4096x4096_S12288x4096_d0 : Shape.Concatenates [S4096x4096, S4096x4096, S4096x4096] S12288x4096 0
  dot_S4x2048x4096_S12288x4096_S4x2048x12288_2_1_01_0_n_n_wf : DotDims.WF S4x2048x4096 S12288x4096 S4x2048x12288 [2] [1] [0, 1] [0] [] []

variable [Facts₀]

def dot_S4x2048x4096_S12288x4096_S4x2048x12288_2_1_01_0_n_n : DotDims S4x2048x4096 S12288x4096 S4x2048x12288 where
  lhsContracting := [2]
  rhsContracting := [1]
  lhsNonContracting := [0, 1]
  rhsNonContracting := [0]
  lhsBatch := []
  rhsBatch := []
  wf := dot_S4x2048x4096_S12288x4096_S4x2048x12288_2_1_01_0_n_n_wf

class Facts : Prop extends Facts₀ where

variable [Facts]
-- ==== Proof.BitsAround.lean ====
/-
  The program around its one kernel region, at any float instance.

  @main stacks the three weight matrices along the rows, flattens the input's two leading axes, runs the tiled
  product over a grid of 16 x 12 x 2 points, and reshapes the result. This module holds what every later step is
  stated over: the contents each device buffer has when the region is entered; that @main is those lines, the
  region, and one more line; that no line touches an argument; the block of each operand a grid point sees; which
  of the body's two branches a point takes (the accumulator is reset where the innermost coordinate is 0 and copied
  out where it is 1, that is at even and odd positions of the 384); and where the result window rests.
-/
import proofs.«117848_j24378234372647_1_alg».proof.Proof.Gen.Kernel.Launch
import proofs.«117848_j24378234372647_1_alg».proof.Proof.Gen.Kernel.Skeleton
import proofs.«117848_j24378234372647_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines around the region -/

/-- What core `c`'s buffers hold when the region is entered: the launch contents after the stacking of the weights
    and the flattening of the input. -/
abbrev entry (c : Dev nD) : Valuation τ sig (Elt F) := StableHlo.after (List.flatten [hostOps0]) (fun b => m (c, b))
/-- The same, read at one buffer. -/
abbrev entryAt (c : Dev nD) (b : Ref sig .tc) : Buf (Elt F) ((c : Thread nD τ).loc b) := entry m c (Proc.devRef .tc b)

theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the two lines, the region, and the closing reshape: it reduces to the region continued by that reshape,
    entered at `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The closing reshape touches unscoped buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- and writes none of the three arrays the region's windows move (it writes the final result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- The lines before the region write only the stacked weights and the flattened input: argument 0 is found as launched. -/
theorem entry_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- The line after the region writes only the result: argument 0 ends as launched. -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg0 (by exact (by decide : ∀ w, Pipeline.arrRef spec0 w ≠ main_arg0))]
  exact entry_arg0 m c

/-- The lines before the region write only the stacked weights and the flattened input: argument 1 is found as launched. -/
theorem entry_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- The line after the region writes only the result: argument 1 ends as launched. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg1 (by exact (by decide : ∀ w, Pipeline.arrRef spec0 w ≠ main_arg1))]
  exact entry_arg1 m c

/-- The lines before the region write only the stacked weights and the flattened input: argument 2 is found as launched. -/
theorem entry_arg2 (c : Dev nD) : entryAt m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- The line after the region writes only the result: argument 2 ends as launched. -/
theorem exit_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg2 (by exact (by decide : ∀ w, Pipeline.arrRef spec0 w ≠ main_arg2))]
  exact entry_arg2 m c

/-- The lines before the region write only the stacked weights and the flattened input: argument 3 is found as launched. -/
theorem entry_arg3 (c : Dev nD) : entryAt m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- The line after the region writes only the result: argument 3 ends as launched. -/
theorem exit_arg3 (dats : (p : Fin _) → (c : Dev nD) → Dat τ (Elt F) Unit ℕ (UR sig nD τ) ℕ (cfgs p) c) (c : Dev nD) :
    Pipeline.afterTail₀ cfgs dats 0 (entry m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg3 (by exact (by decide : ∀ w, Pipeline.arrRef spec0 w ≠ main_arg3))]
  exact entry_arg3 m c

/-! ## The blocks a grid point sees -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's current staging buffer holds its block at every point, fetched there or not, for any proof data
    whose array is the region-entry one and whose body leaves the block in place. -/
theorem staged0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not, for any proof data
    whose array is the region-entry one and whose body leaves the block in place. -/
theorem staged1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## From a run of the region to the claim about the arguments -/

/-- A run that ends with every buffer outside the windows' arrays as the closing reshape leaves it ends with the four
    arguments as launched. -/
theorem args_kept_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c)⟩) h

/-! ## The body's two branches -/

/-- The body resets the accumulator where the innermost grid coordinate is 0: -/
abbrev resets (i : grid0.Coords) : Prop := (Scalar.cmpi .ne (Scalar.extui (Scalar.cmpi .eq (BitVec.ofNat 32 (i 2).val) 0#32)) 0#32) = 1#1
/-- at the even positions. -/
theorem resets_iff : ∀ t : Fin cfg0.N, resets (grid0.coords t) ↔ t.val % 2 = 0 :=
  (by decide +kernel : ∀ t : Fin grid0.N, resets (grid0.coords t) ↔ t.val % 2 = 0)

/-- It copies the accumulator into the result block where that coordinate is 1: -/
abbrev emits (i : grid0.Coords) : Prop := k0_cond2 i = 1#1
/-- at the odd positions. -/
theorem emits_iff : ∀ t : Fin cfg0.N, emits (grid0.coords t) ↔ t.val % 2 = 1 :=
  (by decide +kernel : ∀ t : Fin grid0.N, emits (grid0.coords t) ↔ t.val % 2 = 1)

/-! ## Where the windows rest -/

/-- The two operand windows never rest. -/
theorem live0 : ∀ t : Fin cfg0.N, cfg0.idle 0 (grid0.coords t) = false := by decide +kernel
theorem live1 : ∀ t : Fin cfg0.N, cfg0.idle 1 (grid0.coords t) = false := by decide +kernel
/-- Where the body does not copy out, the result window rests and is not written back; -/
theorem rest2 : ∀ t : Fin cfg0.N, resets (grid0.coords t) → ¬emits (grid0.coords t) → cfg0.idle 2 (grid0.coords t) = true := by decide +kernel
theorem unflushed2 : ∀ t : Fin cfg0.N, resets (grid0.coords t) → ¬emits (grid0.coords t) → (cfg0.win 2).flush t = false := by decide +kernel
/-- where it does, the window is live. -/
theorem live2 : ∀ t : Fin cfg0.N, ¬resets (grid0.coords t) → emits (grid0.coords t) → cfg0.idle 2 (grid0.coords t) = false := by decide +kernel

/-! ## The memrefs the body is called with -/

/-- One staging buffer of the result window, through which its contents are stated. -/
abbrev outView : View sig .tc .vmem S512x1024 .f32 := (Memref.whole cc0_stg2_0 : Memref sig .tc .vmem S512x1024 .f32).view
abbrev xMem (t : Fin cfg0.N) : Memref sig .tc .vmem S512x2048 .f32 := win0_0.stage (cfg0.slots t 0)
abbrev xWhole (t : Fin cfg0.N) : (xMem t).IsWhole := hstage0_0 ((cfg0.slots t 0).cast nbuf0_0)
abbrev wMem (t : Fin cfg0.N) : Memref sig .tc .vmem S1024x2048 .f32 := win0_1.stage (cfg0.slots t 1)
abbrev wWhole (t : Fin cfg0.N) : (wMem t).IsWhole := hstage0_1 ((cfg0.slots t 1).cast nbuf0_1)
abbrev oMem (t : Fin cfg0.N) : Memref sig .tc .vmem S512x1024 .f32 := win0_2.stage (cfg0.slots t 2)
abbrev oWhole (t : Fin cfg0.N) : (oMem t).IsWhole := hstage0_2 ((cfg0.slots t 2).cast nbuf0_2)
/-- The accumulator: a scoped buffer of the kernel's own, carried from point to point. -/
abbrev accMem : Memref sig .tc .vmem S512x1024 .f32 := Memref.whole cc0_scratch0
abbrev accView : View sig .tc .vmem S512x1024 .f32 := accMem.view

/-- What the region may use beside its windows: the accumulator at some contents and the generator register. -/
theorem rest_eq (c : Dev nD) :
    (Pipeline.ΦA spec0 c : sProp 𝕄)
      = iprop(iprop((∃ d, owns (c : Thread nD τ) accMem fullShare d)) ∗ (∃ r, prngReg c r)) := by
  unfold Pipeline.ΦA; rw [scopedRest0_eq]; simp only [accMem, owns_whole]; try rfl

end Cert.Kernel.Around

end
-- ==== Proof.BitsRunReset.lean ====
/-
  The body at a point whose innermost coordinate is 0, on any whole staging memrefs.

  It overwrites the accumulator with zeros, loads the two operand blocks, adds their product along the shared axis
  to the accumulator and stores the sum back; the result block is not touched. The accumulator may enter at any
  contents; the pieces it ends with are found by running the body.
-/
import proofs.«117848_j24378234372647_1_alg».proof.Proof.BitsAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a resetting point, with the proof that the body runs from the operand
    blocks at `x0`, `w0`, the result block at any `xi` (handed back as found) and the accumulator at anything, to a
    state holding the operands and the result block as they were and the accumulator with those pieces written. -/
noncomputable def runReset (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : resets i) (hc1 : ¬emits i)
    (x0 : Vec F S512x2048 .f32) (w0 : Vec F S1024x2048 .f32) :
    { LS : List (View.Piece (Elt F) S512x1024 .f32) //
      ∀ (xi : Vec F S512x1024 .f32) (E : Set ℕ) (K : PUnit → sProp 𝕄),
        iprop(owns (c : Thread nD τ) arg3 fullShare x0 ∗ owns (c : Thread nD τ) arg4 fullShare w0 ∗ owns (c : Thread nD τ) arg5 fullShare xi ∗ (∃ d, owns (c : Thread nD τ) arg6 fullShare d)
            ∗ (iprop(owns (c : Thread nD τ) arg3 fullShare x0 ∗ owns (c : Thread nD τ) arg4 fullShare w0 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__qkv_kernel i arg3 harg3 arg4 harg4 arg5 harg5 arg6 harg6) K } := by
  refine ⟨?_, fun xi E K => ?run⟩
  case run =>
    simp only [cc0__qkv_kernel_eq_skeleton]; unfold cc0__qkv_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Around

end
-- ==== Proof.BitsRunEmit.lean ====
/-
  The body at a point whose innermost coordinate is 1, on any whole staging memrefs.

  It loads the two operand blocks, adds their product along the shared axis to the accumulator as the point before
  left it, stores the sum back, and copies the accumulator into the result block. The pieces the result block and the
  accumulator end with are found by running the body.
-/
import proofs.«117848_j24378234372647_1_alg».proof.Proof.BitsRunReset

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the result block and the accumulator end with at a copying point, with the proof that the body runs
    from the operand blocks at `x0`, `w0`, the result block at anything and the accumulator at `acc`, to a state
    holding the operands as they were and the two buffers with those pieces written. -/
noncomputable def runEmit (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) :
    Σ' (LO : List (View.Piece (Elt F) S512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare w0 ∗ (∃ d, owns (c : Thread nD τ) arg5 fullShare d) ∗ owns (c : Thread nD τ) arg6 fullShare acc
            ∗ (iprop(owns (c : Thread nD τ) arg3 fullShare x0 ∗ owns (c : Thread nD τ) arg4 fullShare w0 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__qkv_kernel i arg3 harg3 arg4 harg4 arg5 harg5 arg6 harg6) K } := by
  refine ⟨?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Around

end
-- ==== Proof.BitsFrame.lean ====
/-
  The tiled product's region runs to the end and leaves the arguments alone, at any float instance.

  After the body at position n the accumulator holds what that point's branch leaves: at an even position the pieces
  of the resetting run, at an odd one the pieces of the copying run started from what position n - 1 left; the result
  block holds the copying run's pieces at odd positions and is not consulted at even ones. With these as the
  proof data — operands at their blocks, the accumulator named from the second point on — every point's body meets
  its obligation, the region's invariant is handed in and given back, and the run of @main follows.
-/
import proofs.«117848_j24378234372647_1_alg».proof.Proof.BitsRunEmit

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Positions and branches -/

theorem not_emits_of_even (t : Fin cfg0.N) (h : t.val % 2 = 0) : ¬emits (grid0.coords t) :=
  fun he => by have := (emits_iff t).mp he; omega
theorem not_resets_of_odd (t : Fin cfg0.N) (h : ¬t.val % 2 = 0) : ¬resets (grid0.coords t) :=
  fun hr => h ((resets_iff t).mp hr)
theorem emits_of_odd (t : Fin cfg0.N) (h : ¬t.val % 2 = 0) : emits (grid0.coords t) :=
  (emits_iff t).mpr (by omega)

/-! ## What each branch leaves -/

/-- The result block's contents where the body does not copy out: never consulted (the window rests there and is
    not written back). -/
def restingOut : Vec F S512x1024 .f32 := outView.read (Elt F) (outView.writes (Elt F) outView.junk [])

/-- The resetting run's pieces tile the accumulator. -/
theorem accCoverReset (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : resets i) (hc1 : ¬emits i)
    (x0 : Vec F S512x2048 .f32) (w0 : Vec F S1024x2048 .f32) (y : S512x1024.Idx) :
    ∃ pc ∈ (runReset c i arg3 harg3 arg4 harg4 arg5 harg5 arg6 harg6 hc0 hc1 x0 w0).1, y ∈ pc.1.set :=
  View.cover_of_tiledL (runReset c i arg3 harg3 arg4 harg4 arg5 harg5 arg6 harg6 hc0 hc1 x0 w0).1 S512x1024.size (by sl_kernel_rfl) y

/-- What a resetting point leaves in the accumulator. -/
def accAfterReset (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : resets i) (hc1 : ¬emits i)
    (x0 : Vec F S512x2048 .f32) (w0 : Vec F S1024x2048 .f32) : Vec F S512x1024 .f32 :=
  accView.read (Elt F) (accView.writes (Elt F) accView.junk (runReset c i arg3 harg3 arg4 harg4 arg5 harg5 arg6 harg6 hc0 hc1 x0 w0).1)

/-- The copying run's pieces tile the result block, -/
theorem outCoverEmit (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) (y : S512x1024.Idx) :
    ∃ pc ∈ (runEmit c i arg3 harg3 arg4 harg4 arg5 harg5 arg6 harg6 hc0 hc1 x0 w0 acc).1, y ∈ pc.1.set :=
  View.cover_of_tiledL (runEmit c i arg3 harg3 arg4 harg4 arg5 harg5 arg6 harg6 hc0 hc1 x0 w0 acc).1 S512x1024.size (by sl_kernel_rfl) y

/-- and the accumulator. -/
theorem accCoverEmit (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) (y : S512x1024.Idx) :
    ∃ pc ∈ (runEmit c i arg3 harg3 arg4 harg4 arg5 harg5 arg6 harg6 hc0 hc1 x0 w0 acc).2.1, y ∈ pc.1.set :=
  View.cover_of_tiledL (runEmit c i arg3 harg3 arg4 harg4 arg5 harg5 arg6 harg6 hc0 hc1 x0 w0 acc).2.1 S512x1024.size (by sl_kernel_rfl) y

/-- What a copying point leaves in the result block, -/
def outAfterEmit (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) : Vec F S512x1024 .f32 :=
  outView.read (Elt F) (outView.writes (Elt F) outView.junk (runEmit c i arg3 harg3 arg4 harg4 arg5 harg5 arg6 harg6 hc0 hc1 x0 w0 acc).1)

/-- and in the accumulator. -/
def accAfterEmit (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) : Vec F S512x1024 .f32 :=
  accView.read (Elt F) (accView.writes (Elt F) accView.junk (runEmit c i arg3 harg3 arg4 harg4 arg5 harg5 arg6 harg6 hc0 hc1 x0 w0 acc).2.1)

/-! ## The contents after each point -/

/-- The result block and the accumulator after the body at position `n`: the branch the position's parity selects,
    run at the point's memrefs and operand blocks; a copying point starts from the accumulator position `n - 1` left. -/
def outsAt (c : Dev nD) : (n : ℕ) → n < cfg0.N → Vec F S512x1024 .f32 × Vec F S512x1024 .f32
  | 0, hn => (restingOut, accAfterReset c (grid0.coords ⟨0, hn⟩) (xMem ⟨0, hn⟩) (xWhole ⟨0, hn⟩) (wMem ⟨0, hn⟩) (wWhole ⟨0, hn⟩) (oMem ⟨0, hn⟩) (oWhole ⟨0, hn⟩) accMem (Memref.isWhole_whole _) ((resets_iff ⟨0, hn⟩).mpr (Nat.zero_mod _)) (not_emits_of_even ⟨0, hn⟩ (Nat.zero_mod _)) (blockAt m c 0 ⟨0, hn⟩) (blockAt m c 1 ⟨0, hn⟩))
  | n + 1, hn =>
    if h0 : (n + 1) % 2 = 0 then
      (restingOut, accAfterReset c (grid0.coords ⟨n + 1, hn⟩) (xMem ⟨n + 1, hn⟩) (xWhole ⟨n + 1, hn⟩) (wMem ⟨n + 1, hn⟩) (wWhole ⟨n + 1, hn⟩) (oMem ⟨n + 1, hn⟩) (oWhole ⟨n + 1, hn⟩) accMem (Memref.isWhole_whole _) ((resets_iff ⟨n + 1, hn⟩).mpr h0) (not_emits_of_even ⟨n + 1, hn⟩ h0) (blockAt m c 0 ⟨n + 1, hn⟩) (blockAt m c 1 ⟨n + 1, hn⟩))
    else
      (outAfterEmit c (grid0.coords ⟨n + 1, hn⟩) (xMem ⟨n + 1, hn⟩) (xWhole ⟨n + 1, hn⟩) (wMem ⟨n + 1, hn⟩) (wWhole ⟨n + 1, hn⟩) (oMem ⟨n + 1, hn⟩) (oWhole ⟨n + 1, hn⟩) accMem (Memref.isWhole_whole _) (not_resets_of_odd ⟨n + 1, hn⟩ h0) (emits_of_odd ⟨n + 1, hn⟩ h0) (blockAt m c 0 ⟨n + 1, hn⟩) (blockAt m c 1 ⟨n + 1, hn⟩) (outsAt c n (Nat.lt_of_succ_lt hn)).2, accAfterEmit c (grid0.coords ⟨n + 1, hn⟩) (xMem ⟨n + 1, hn⟩) (xWhole ⟨n + 1, hn⟩) (wMem ⟨n + 1, hn⟩) (wWhole ⟨n + 1, hn⟩) (oMem ⟨n + 1, hn⟩) (oWhole ⟨n + 1, hn⟩) accMem (Memref.isWhole_whole _) (not_resets_of_odd ⟨n + 1, hn⟩ h0) (emits_of_odd ⟨n + 1, hn⟩ h0) (blockAt m c 0 ⟨n + 1, hn⟩) (blockAt m c 1 ⟨n + 1, hn⟩) (outsAt c n (Nat.lt_of_succ_lt hn)).2)

/-- At an even position: the resetting branch's contents. -/
theorem outsAt_even (c : Dev nD) (t : Fin cfg0.N) (h0 : t.val % 2 = 0) :
    outsAt m c t.val t.isLt = (restingOut, accAfterReset c (grid0.coords t) (xMem t) (xWhole t) (wMem t) (wWhole t) (oMem t) (oWhole t) accMem (Memref.isWhole_whole _) ((resets_iff t).mpr h0) (not_emits_of_even t h0) (blockAt m c 0 t) (blockAt m c 1 t)) := by
  obtain ⟨n, hn⟩ := t
  cases n with
  | zero => exact rfl
  | succ n => exact (dif_pos h0).trans rfl

/-- At an odd position: the copying branch's contents, over what the position before left. -/
theorem outsAt_odd (c : Dev nD) (t : Fin cfg0.N) (h0 : ¬t.val % 2 = 0) :
    outsAt m c t.val t.isLt = (outAfterEmit c (grid0.coords t) (xMem t) (xWhole t) (wMem t) (wWhole t) (oMem t) (oWhole t) accMem (Memref.isWhole_whole _) (not_resets_of_odd t h0) (emits_of_odd t h0) (blockAt m c 0 t) (blockAt m c 1 t) (outsAt m c (t.val - 1) (Nat.lt_of_le_of_lt (Nat.sub_le _ _) t.isLt)).2, accAfterEmit c (grid0.coords t) (xMem t) (xWhole t) (wMem t) (wWhole t) (oMem t) (oWhole t) accMem (Memref.isWhole_whole _) (not_resets_of_odd t h0) (emits_of_odd t h0) (blockAt m c 0 t) (blockAt m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant -/

/-- Before position `n`: at the start the accumulator at anything; afterwards at what position `n - 1` left; the
    generator register at some state throughout. -/
def carried (c : Dev nD) : (n : ℕ) → n ≤ cfg0.N → sProp 𝕄
  | 0, _ => Pipeline.ΦA spec0 c
  | n + 1, hn => iprop(iprop(owns (c : Thread nD τ) accMem fullShare ((outsAt m c n hn).2)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) accMem fullShare ((outsAt m c n hn).2)) ∗ (∃ r, prngReg c r)) := rfl

theorem carried_pos (c : Dev nD) (n : ℕ) (h : n ≤ cfg0.N) (hz : n ≠ 0) :
    carried m c n h = iprop(iprop(owns (c : Thread nD τ) accMem fullShare ((outsAt m c (n - 1) (by omega)).2)) ∗ (∃ r, prngReg c r)) := by
  cases n with
  | zero => exact absurd rfl hz
  | succ n => rfl

/-! ## The proof data -/

/-- On core `c`: the arrays as the region finds them; after the body each operand's buffer at its block and the
    result's at `outsAt`; the invariant `carried`; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => (outsAt m c t.val t.isLt).1
  Φ t := carried m c t.val (Nat.le_of_lt_succ t.isLt)
  q _ := fullShare
  owed _ := 0

theorem arrays_eq (c : Dev nD) (w : Fin cfg0.W) : (dats m 0 c).A w = entryAt m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_x (c : Dev nD) (t : Fin cfg0.N) : (dats m 0 c).after 0 t = blockAt m c 0 t := by dsimp only [dats]
theorem after_w (c : Dev nD) (t : Fin cfg0.N) : (dats m 0 c).after 1 t = blockAt m c 1 t := by dsimp only [dats]
theorem after_o (c : Dev nD) (t : Fin cfg0.N) : (dats m 0 c).after 2 t = (outsAt m c t.val t.isLt).1 := by dsimp only [dats]

theorem before_x (c : Dev nD) (t : Fin cfg0.N) (d) : (dats m 0 c).before 0 t d = blockAt m c 0 t :=
  staged0_of m (dats m 0 c) (arrays_eq m c 0) (after_x m c) t d
theorem before_w (c : Dev nD) (t : Fin cfg0.N) (d) : (dats m 0 c).before 1 t d = blockAt m c 1 t :=
  staged1_of m (dats m 0 c) (arrays_eq m c 1) (after_w m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (xMem t) fullShare ((dats m 0 c).before 0 t d))
    ∗ (∃ d, owns (c : Thread nD τ) (wMem t) fullShare ((dats m 0 c).before 1 t d))
    ∗ (∃ d, owns (c : Thread nD τ) (oMem t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The operands' memrefs hold their blocks; the position's parity says which branch runs; the invariant hands the
    body the accumulator (at anything at the first point, else at what the point before left) and takes it back at
    this point's contents, which the branch's pieces cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).owesAt () t.succ = (dats m 0 c).owesAt () t.castSucc from rfl]
  rw [show (dats m 0 c).Φ t.succ = carried m c (t.val + 1) t.isLt from rfl, carried_succ]
  have hN : t.val < 384 := lt_of_lt_of_eq t.isLt (show cfg0.N = 384 from N_0)
  rw [show (dats m 0 c).leavesExact 0 t = owns (c : Thread nD τ) (xMem t) fullShare ((dats m 0 c).after 0 t) from by
    unfold Dat.leavesExact; rw [live0 t], after_x]
  rw [show (dats m 0 c).leavesExact 1 t = owns (c : Thread nD τ) (wMem t) fullShare ((dats m 0 c).after 1 t) from by
    unfold Dat.leavesExact; rw [live1 t], after_w]
  by_cases h0 : t.val % 2 = 0
  · rw [Dat.leavesExact_idle (dats m 0 c) 2 t (rest2 t ((resets_iff t).mpr h0) (not_emits_of_even t h0)) (unflushed2 t ((resets_iff t).mpr h0) (not_emits_of_even t h0))]
    rw [outsAt_even m c t h0]
    unfold accAfterReset; (try dsimp only)
    by_cases hz : t.val = 0
    · rw [carried_castSucc m c t, carried_zero m c _ _ hz, rest_eq]
      iintro ⟨⟨HS0, Hg⟩, Ho, ⟨%d0, H0⟩, ⟨%d1, H1⟩, ⟨%d2, H2⟩⟩
      iapply ((runReset c (grid0.coords t) _ _ _ _ _ _ _ _ ((resets_iff t).mpr h0) (not_emits_of_even t h0) (blockAt m c 0 t) (blockAt m c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (accCoverReset c _ _ _ _ _ _ _ _ _ _ _ _ _)
        iexact Hg
      isplitl [Ho]; · iexact Ho
      isplitl [H0]; · iexact H0
      isplitl [H1]; · iexact H1
      iexists _; iexact H2
    · rw [carried_castSucc m c t, carried_pos m c _ _ hz]
      iintro ⟨⟨HS0, Hg⟩, Ho, ⟨%d0, H0⟩, ⟨%d1, H1⟩, ⟨%d2, H2⟩⟩
      iapply ((runReset c (grid0.coords t) _ _ _ _ _ _ _ _ ((resets_iff t).mpr h0) (not_emits_of_even t h0) (blockAt m c 0 t) (blockAt m c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (accCoverReset c _ _ _ _ _ _ _ _ _ _ _ _ _)
        iexact Hg
      isplitl [Ho]; · iexact Ho
      isplitl [H0]; · iexact H0
      isplitl [H1]; · iexact H1
      iexists _; iexact H2
  · rw [show (dats m 0 c).leavesExact 2 t = owns (c : Thread nD τ) (oMem t) fullShare ((dats m 0 c).after 2 t) from by
      unfold Dat.leavesExact; rw [live2 t (not_resets_of_odd t h0) (emits_of_odd t h0)], after_o]
    rw [outsAt_odd m c t h0]
    unfold outAfterEmit accAfterEmit; (try dsimp only)
    have hz : t.val ≠ 0 := fun e => h0 (by rw [e])
    rw [carried_castSucc m c t, carried_pos m c _ _ hz]
    iintro ⟨⟨HS0, Hg⟩, Ho, ⟨%d0, H0⟩, ⟨%d1, H1⟩, ⟨%d2, H2⟩⟩
    iapply ((runEmit c (grid0.coords t) _ _ _ _ _ _ _ _ (not_resets_of_odd t h0) (emits_of_odd t h0) (blockAt m c 0 t) (blockAt m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (accCoverEmit c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (outCoverEmit c _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem handed_in (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After any point the invariant gives it back: the accumulator's named contents are forgotten. -/
theorem handed_back (c : Dev nD) : (dats m 0 c).Φ (Fin.last cfg0.N) ⊢ Pipeline.ΦA spec0 c := by
  have ht : (Fin.last cfg0.N).val ≠ 0 := by rw [Fin.val_last]; have : cfg0.N = 384 := N_0; omega
  rw [show (dats m 0 c).Φ (Fin.last cfg0.N) = carried m c (Fin.last cfg0.N).val (Nat.le_of_lt_succ (Fin.last cfg0.N).isLt) from rfl, carried_pos m c _ _ ht, rest_eq]
  iintro ⟨HS0, Hg⟩
  isplitl [HS0]
  · iexists _; iexact HS0
  iexact Hg

/-! ## The run and the frame -/

set_option backward.isDefEq.respectTransparency.types false in
/-- Every weakly fair execution of @main terminates, with every array of the region at what the proof data computes
    and every other unscoped buffer as the closing reshape leaves it. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := tail_sub) (hfresh := tail_fresh) (hkeep := tail_keeps)
    (hmain := main_around m Variants.none) (hA := arrays_eq m) (hin := handed_in m) (hout := handed_back m)

/-- The program terminates, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_kept_of m ρ (dats m) (run_main m ρ)

end Cert.Kernel.Around

end
-- ==== Proof.IdealAround.lean ====
/-
  The program around its one kernel region, at any float instance.

  @main stacks the three weight matrices along the rows, flattens the input's two leading axes, runs the tiled
  product over a grid of 16 x 12 x 2 points, and reshapes the result. This module holds what every later step is
  stated over: the contents each device buffer has when the region is entered; that @main is those lines, the
  region, and one more line; that no line touches an argument; the block of each operand a grid point sees; which
  of the body's two branches a point takes (the accumulator is reset where the innermost coordinate is 0 and copied
  out where it is 1, that is at even and odd positions of the 384); and where the result window rests.
-/
import proofs.«117848_j24378234372647_1_alg».proof.Proof.Gen.KernelIdeal.Launch
import proofs.«117848_j24378234372647_1_alg».proof.Proof.Gen.KernelIdeal.Skeleton
import proofs.«117848_j24378234372647_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines around the region -/

/-- What core `c`'s buffers hold when the region is entered: the launch contents after the stacking of the weights
    and the flattening of the input. -/
abbrev entry (c : Dev nD) : Valuation τ sig (Elt F) := StableHlo.after (List.flatten [hostOps0]) (fun b => m (c, b))
/-- The same, read at one buffer. -/
abbrev entryAt (c : Dev nD) (b : Ref sig .tc) : Buf (Elt F) ((c : Thread nD τ).loc b) := entry m c (Proc.devRef .tc b)

theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the two lines, the region, and the closing reshape: it reduces to the region continued by that reshape,
    entered at `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The closing reshape touches unscoped buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- and writes none of the three arrays the region's windows move (it writes the final result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- The lines before the region write only the stacked weights and the flattened input: argument 0 is found as launched. -/
theorem entry_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- The line after the region writes only the result: argument 0 ends as launched. -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg0 (by exact (by decide : ∀ w, Pipeline.arrRef spec0 w ≠ main_arg0))]
  exact entry_arg0 m c

/-- The lines before the region write only the stacked weights and the flattened input: argument 1 is found as launched. -/
theorem entry_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- The line after the region writes only the result: argument 1 ends as launched. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg1 (by exact (by decide : ∀ w, Pipeline.arrRef spec0 w ≠ main_arg1))]
  exact entry_arg1 m c

/-- The lines before the region write only the stacked weights and the flattened input: argument 2 is found as launched. -/
theorem entry_arg2 (c : Dev nD) : entryAt m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- The line after the region writes only the result: argument 2 ends as launched. -/
theorem exit_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg2 (by exact (by decide : ∀ w, Pipeline.arrRef spec0 w ≠ main_arg2))]
  exact entry_arg2 m c

/-- The lines before the region write only the stacked weights and the flattened input: argument 3 is found as launched. -/
theorem entry_arg3 (c : Dev nD) : entryAt m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- The line after the region writes only the result: argument 3 ends as launched. -/
theorem exit_arg3 (dats : (p : Fin _) → (c : Dev nD) → Dat τ (Elt F) Unit ℕ (UR sig nD τ) ℕ (cfgs p) c) (c : Dev nD) :
    Pipeline.afterTail₀ cfgs dats 0 (entry m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entry m c) _ main_arg3 (by exact (by decide : ∀ w, Pipeline.arrRef spec0 w ≠ main_arg3))]
  exact entry_arg3 m c

/-! ## The blocks a grid point sees -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's current staging buffer holds its block at every point, fetched there or not, for any proof data
    whose array is the region-entry one and whose body leaves the block in place. -/
theorem staged0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not, for any proof data
    whose array is the region-entry one and whose body leaves the block in place. -/
theorem staged1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## From a run of the region to the claim about the arguments -/

/-- A run that ends with every buffer outside the windows' arrays as the closing reshape leaves it ends with the four
    arguments as launched. -/
theorem args_kept_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c)⟩) h

/-! ## The body's two branches -/

/-- The body resets the accumulator where the innermost grid coordinate is 0: -/
abbrev resets (i : grid0.Coords) : Prop := (Scalar.cmpi .ne (Scalar.extui (Scalar.cmpi .eq (BitVec.ofNat 32 (i 2).val) 0#32)) 0#32) = 1#1
/-- at the even positions. -/
theorem resets_iff : ∀ t : Fin cfg0.N, resets (grid0.coords t) ↔ t.val % 2 = 0 :=
  (by decide +kernel : ∀ t : Fin grid0.N, resets (grid0.coords t) ↔ t.val % 2 = 0)

/-- It copies the accumulator into the result block where that coordinate is 1: -/
abbrev emits (i : grid0.Coords) : Prop := k0_cond2 i = 1#1
/-- at the odd positions. -/
theorem emits_iff : ∀ t : Fin cfg0.N, emits (grid0.coords t) ↔ t.val % 2 = 1 :=
  (by decide +kernel : ∀ t : Fin grid0.N, emits (grid0.coords t) ↔ t.val % 2 = 1)

/-! ## Where the windows rest -/

/-- The two operand windows never rest. -/
theorem live0 : ∀ t : Fin cfg0.N, cfg0.idle 0 (grid0.coords t) = false := by decide +kernel
theorem live1 : ∀ t : Fin cfg0.N, cfg0.idle 1 (grid0.coords t) = false := by decide +kernel
/-- Where the body does not copy out, the result window rests and is not written back; -/
theorem rest2 : ∀ t : Fin cfg0.N, resets (grid0.coords t) → ¬emits (grid0.coords t) → cfg0.idle 2 (grid0.coords t) = true := by decide +kernel
theorem unflushed2 : ∀ t : Fin cfg0.N, resets (grid0.coords t) → ¬emits (grid0.coords t) → (cfg0.win 2).flush t = false := by decide +kernel
/-- where it does, the window is live. -/
theorem live2 : ∀ t : Fin cfg0.N, ¬resets (grid0.coords t) → emits (grid0.coords t) → cfg0.idle 2 (grid0.coords t) = false := by decide +kernel

/-! ## The memrefs the body is called with -/

/-- One staging buffer of the result window, through which its contents are stated. -/
abbrev outView : View sig .tc .vmem S512x1024 .f32 := (Memref.whole cc0_stg2_0 : Memref sig .tc .vmem S512x1024 .f32).view
abbrev xMem (t : Fin cfg0.N) : Memref sig .tc .vmem S512x2048 .f32 := win0_0.stage (cfg0.slots t 0)
abbrev xWhole (t : Fin cfg0.N) : (xMem t).IsWhole := hstage0_0 ((cfg0.slots t 0).cast nbuf0_0)
abbrev wMem (t : Fin cfg0.N) : Memref sig .tc .vmem S1024x2048 .f32 := win0_1.stage (cfg0.slots t 1)
abbrev wWhole (t : Fin cfg0.N) : (wMem t).IsWhole := hstage0_1 ((cfg0.slots t 1).cast nbuf0_1)
abbrev oMem (t : Fin cfg0.N) : Memref sig .tc .vmem S512x1024 .f32 := win0_2.stage (cfg0.slots t 2)
abbrev oWhole (t : Fin cfg0.N) : (oMem t).IsWhole := hstage0_2 ((cfg0.slots t 2).cast nbuf0_2)
/-- The accumulator: a scoped buffer of the kernel's own, carried from point to point. -/
abbrev accMem : Memref sig .tc .vmem S512x1024 .f32 := Memref.whole cc0_scratch0
abbrev accView : View sig .tc .vmem S512x1024 .f32 := accMem.view

/-- What the region may use beside its windows: the accumulator at some contents and the generator register. -/
theorem rest_eq (c : Dev nD) :
    (Pipeline.ΦA spec0 c : sProp 𝕄)
      = iprop(iprop((∃ d, owns (c : Thread nD τ) accMem fullShare d)) ∗ (∃ r, prngReg c r)) := by
  unfold Pipeline.ΦA; rw [scopedRest0_eq]; simp only [accMem, owns_whole]; try rfl

end Cert.KernelIdeal.Around

end
-- ==== Proof.IdealRunReset.lean ====
/-
  The body at a point whose innermost coordinate is 0, on any whole staging memrefs.

  It overwrites the accumulator with zeros, loads the two operand blocks, adds their product along the shared axis
  to the accumulator and stores the sum back; the result block is not touched. The accumulator may enter at any
  contents; the pieces it ends with are found by running the body.
-/
import proofs.«117848_j24378234372647_1_alg».proof.Proof.IdealAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with at a resetting point, with the proof that the body runs from the operand
    blocks at `x0`, `w0`, the result block at any `xi` (handed back as found) and the accumulator at anything, to a
    state holding the operands and the result block as they were and the accumulator with those pieces written. -/
noncomputable def runReset (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : resets i) (hc1 : ¬emits i)
    (x0 : Vec F S512x2048 .f32) (w0 : Vec F S1024x2048 .f32) :
    { LS : List (View.Piece (Elt F) S512x1024 .f32) //
      ∀ (xi : Vec F S512x1024 .f32) (E : Set ℕ) (K : PUnit → sProp 𝕄),
        iprop(owns (c : Thread nD τ) arg3 fullShare x0 ∗ owns (c : Thread nD τ) arg4 fullShare w0 ∗ owns (c : Thread nD τ) arg5 fullShare xi ∗ (∃ d, owns (c : Thread nD τ) arg6 fullShare d)
            ∗ (iprop(owns (c : Thread nD τ) arg3 fullShare x0 ∗ owns (c : Thread nD τ) arg4 fullShare w0 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__qkv_kernel i arg3 harg3 arg4 harg4 arg5 harg5 arg6 harg6) K } := by
  refine ⟨?_, fun xi E K => ?run⟩
  case run =>
    simp only [cc0__qkv_kernel_eq_skeleton]; unfold cc0__qkv_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Around

end
-- ==== Proof.IdealRunEmit.lean ====
/-
  The body at a point whose innermost coordinate is 1, on any whole staging memrefs.

  It loads the two operand blocks, adds their product along the shared axis to the accumulator as the point before
  left it, stores the sum back, and copies the accumulator into the result block. The pieces the result block and the
  accumulator end with are found by running the body.
-/
import proofs.«117848_j24378234372647_1_alg».proof.Proof.IdealRunReset

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the result block and the accumulator end with at a copying point, with the proof that the body runs
    from the operand blocks at `x0`, `w0`, the result block at anything and the accumulator at `acc`, to a state
    holding the operands as they were and the two buffers with those pieces written. -/
noncomputable def runEmit (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) :
    Σ' (LO : List (View.Piece (Elt F) S512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare w0 ∗ (∃ d, owns (c : Thread nD τ) arg5 fullShare d) ∗ owns (c : Thread nD τ) arg6 fullShare acc
            ∗ (iprop(owns (c : Thread nD τ) arg3 fullShare x0 ∗ owns (c : Thread nD τ) arg4 fullShare w0 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__qkv_kernel i arg3 harg3 arg4 harg4 arg5 harg5 arg6 harg6) K } := by
  refine ⟨?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Around

end
-- ==== Proof.IdealFrame.lean ====
/-
  The tiled product's region runs to the end and leaves the arguments alone, at any float instance.

  After the body at position n the accumulator holds what that point's branch leaves: at an even position the pieces
  of the resetting run, at an odd one the pieces of the copying run started from what position n - 1 left; the result
  block holds the copying run's pieces at odd positions and is not consulted at even ones. With these as the
  proof data — operands at their blocks, the accumulator named from the second point on — every point's body meets
  its obligation, the region's invariant is handed in and given back, and the run of @main follows.
-/
import proofs.«117848_j24378234372647_1_alg».proof.Proof.IdealRunEmit

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Positions and branches -/

theorem not_emits_of_even (t : Fin cfg0.N) (h : t.val % 2 = 0) : ¬emits (grid0.coords t) :=
  fun he => by have := (emits_iff t).mp he; omega
theorem not_resets_of_odd (t : Fin cfg0.N) (h : ¬t.val % 2 = 0) : ¬resets (grid0.coords t) :=
  fun hr => h ((resets_iff t).mp hr)
theorem emits_of_odd (t : Fin cfg0.N) (h : ¬t.val % 2 = 0) : emits (grid0.coords t) :=
  (emits_iff t).mpr (by omega)

/-! ## What each branch leaves -/

/-- The result block's contents where the body does not copy out: never consulted (the window rests there and is
    not written back). -/
def restingOut : Vec F S512x1024 .f32 := outView.read (Elt F) (outView.writes (Elt F) outView.junk [])

/-- The resetting run's pieces tile the accumulator. -/
theorem accCoverReset (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : resets i) (hc1 : ¬emits i)
    (x0 : Vec F S512x2048 .f32) (w0 : Vec F S1024x2048 .f32) (y : S512x1024.Idx) :
    ∃ pc ∈ (runReset c i arg3 harg3 arg4 harg4 arg5 harg5 arg6 harg6 hc0 hc1 x0 w0).1, y ∈ pc.1.set :=
  View.cover_of_tiledL (runReset c i arg3 harg3 arg4 harg4 arg5 harg5 arg6 harg6 hc0 hc1 x0 w0).1 S512x1024.size (by sl_kernel_rfl) y

/-- What a resetting point leaves in the accumulator. -/
def accAfterReset (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : resets i) (hc1 : ¬emits i)
    (x0 : Vec F S512x2048 .f32) (w0 : Vec F S1024x2048 .f32) : Vec F S512x1024 .f32 :=
  accView.read (Elt F) (accView.writes (Elt F) accView.junk (runReset c i arg3 harg3 arg4 harg4 arg5 harg5 arg6 harg6 hc0 hc1 x0 w0).1)

/-- The copying run's pieces tile the result block, -/
theorem outCoverEmit (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) (y : S512x1024.Idx) :
    ∃ pc ∈ (runEmit c i arg3 harg3 arg4 harg4 arg5 harg5 arg6 harg6 hc0 hc1 x0 w0 acc).1, y ∈ pc.1.set :=
  View.cover_of_tiledL (runEmit c i arg3 harg3 arg4 harg4 arg5 harg5 arg6 harg6 hc0 hc1 x0 w0 acc).1 S512x1024.size (by sl_kernel_rfl) y

/-- and the accumulator. -/
theorem accCoverEmit (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) (y : S512x1024.Idx) :
    ∃ pc ∈ (runEmit c i arg3 harg3 arg4 harg4 arg5 harg5 arg6 harg6 hc0 hc1 x0 w0 acc).2.1, y ∈ pc.1.set :=
  View.cover_of_tiledL (runEmit c i arg3 harg3 arg4 harg4 arg5 harg5 arg6 harg6 hc0 hc1 x0 w0 acc).2.1 S512x1024.size (by sl_kernel_rfl) y

/-- What a copying point leaves in the result block, -/
def outAfterEmit (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) : Vec F S512x1024 .f32 :=
  outView.read (Elt F) (outView.writes (Elt F) outView.junk (runEmit c i arg3 harg3 arg4 harg4 arg5 harg5 arg6 harg6 hc0 hc1 x0 w0 acc).1)

/-- and in the accumulator. -/
def accAfterEmit (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) : Vec F S512x1024 .f32 :=
  accView.read (Elt F) (accView.writes (Elt F) accView.junk (runEmit c i arg3 harg3 arg4 harg4 arg5 harg5 arg6 harg6 hc0 hc1 x0 w0 acc).2.1)

/-! ## The contents after each point -/

/-- The result block and the accumulator after the body at position `n`: the branch the position's parity selects,
    run at the point's memrefs and operand blocks; a copying point starts from the accumulator position `n - 1` left. -/
def outsAt (c : Dev nD) : (n : ℕ) → n < cfg0.N → Vec F S512x1024 .f32 × Vec F S512x1024 .f32
  | 0, hn => (restingOut, accAfterReset c (grid0.coords ⟨0, hn⟩) (xMem ⟨0, hn⟩) (xWhole ⟨0, hn⟩) (wMem ⟨0, hn⟩) (wWhole ⟨0, hn⟩) (oMem ⟨0, hn⟩) (oWhole ⟨0, hn⟩) accMem (Memref.isWhole_whole _) ((resets_iff ⟨0, hn⟩).mpr (Nat.zero_mod _)) (not_emits_of_even ⟨0, hn⟩ (Nat.zero_mod _)) (blockAt m c 0 ⟨0, hn⟩) (blockAt m c 1 ⟨0, hn⟩))
  | n + 1, hn =>
    if h0 : (n + 1) % 2 = 0 then
      (restingOut, accAfterReset c (grid0.coords ⟨n + 1, hn⟩) (xMem ⟨n + 1, hn⟩) (xWhole ⟨n + 1, hn⟩) (wMem ⟨n + 1, hn⟩) (wWhole ⟨n + 1, hn⟩) (oMem ⟨n + 1, hn⟩) (oWhole ⟨n + 1, hn⟩) accMem (Memref.isWhole_whole _) ((resets_iff ⟨n + 1, hn⟩).mpr h0) (not_emits_of_even ⟨n + 1, hn⟩ h0) (blockAt m c 0 ⟨n + 1, hn⟩) (blockAt m c 1 ⟨n + 1, hn⟩))
    else
      (outAfterEmit c (grid0.coords ⟨n + 1, hn⟩) (xMem ⟨n + 1, hn⟩) (xWhole ⟨n + 1, hn⟩) (wMem ⟨n + 1, hn⟩) (wWhole ⟨n + 1, hn⟩) (oMem ⟨n + 1, hn⟩) (oWhole ⟨n + 1, hn⟩) accMem (Memref.isWhole_whole _) (not_resets_of_odd ⟨n + 1, hn⟩ h0) (emits_of_odd ⟨n + 1, hn⟩ h0) (blockAt m c 0 ⟨n + 1, hn⟩) (blockAt m c 1 ⟨n + 1, hn⟩) (outsAt c n (Nat.lt_of_succ_lt hn)).2, accAfterEmit c (grid0.coords ⟨n + 1, hn⟩) (xMem ⟨n + 1, hn⟩) (xWhole ⟨n + 1, hn⟩) (wMem ⟨n + 1, hn⟩) (wWhole ⟨n + 1, hn⟩) (oMem ⟨n + 1, hn⟩) (oWhole ⟨n + 1, hn⟩) accMem (Memref.isWhole_whole _) (not_resets_of_odd ⟨n + 1, hn⟩ h0) (emits_of_odd ⟨n + 1, hn⟩ h0) (blockAt m c 0 ⟨n + 1, hn⟩) (blockAt m c 1 ⟨n + 1, hn⟩) (outsAt c n (Nat.lt_of_succ_lt hn)).2)

/-- At an even position: the resetting branch's contents. -/
theorem outsAt_even (c : Dev nD) (t : Fin cfg0.N) (h0 : t.val % 2 = 0) :
    outsAt m c t.val t.isLt = (restingOut, accAfterReset c (grid0.coords t) (xMem t) (xWhole t) (wMem t) (wWhole t) (oMem t) (oWhole t) accMem (Memref.isWhole_whole _) ((resets_iff t).mpr h0) (not_emits_of_even t h0) (blockAt m c 0 t) (blockAt m c 1 t)) := by
  obtain ⟨n, hn⟩ := t
  cases n with
  | zero => exact rfl
  | succ n => exact (dif_pos h0).trans rfl

/-- At an odd position: the copying branch's contents, over what the position before left. -/
theorem outsAt_odd (c : Dev nD) (t : Fin cfg0.N) (h0 : ¬t.val % 2 = 0) :
    outsAt m c t.val t.isLt = (outAfterEmit c (grid0.coords t) (xMem t) (xWhole t) (wMem t) (wWhole t) (oMem t) (oWhole t) accMem (Memref.isWhole_whole _) (not_resets_of_odd t h0) (emits_of_odd t h0) (blockAt m c 0 t) (blockAt m c 1 t) (outsAt m c (t.val - 1) (Nat.lt_of_le_of_lt (Nat.sub_le _ _) t.isLt)).2, accAfterEmit c (grid0.coords t) (xMem t) (xWhole t) (wMem t) (wWhole t) (oMem t) (oWhole t) accMem (Memref.isWhole_whole _) (not_resets_of_odd t h0) (emits_of_odd t h0) (blockAt m c 0 t) (blockAt m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant -/

/-- Before position `n`: at the start the accumulator at anything; afterwards at what position `n - 1` left; the
    generator register at some state throughout. -/
def carried (c : Dev nD) : (n : ℕ) → n ≤ cfg0.N → sProp 𝕄
  | 0, _ => Pipeline.ΦA spec0 c
  | n + 1, hn => iprop(iprop(owns (c : Thread nD τ) accMem fullShare ((outsAt m c n hn).2)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) accMem fullShare ((outsAt m c n hn).2)) ∗ (∃ r, prngReg c r)) := rfl

theorem carried_pos (c : Dev nD) (n : ℕ) (h : n ≤ cfg0.N) (hz : n ≠ 0) :
    carried m c n h = iprop(iprop(owns (c : Thread nD τ) accMem fullShare ((outsAt m c (n - 1) (by omega)).2)) ∗ (∃ r, prngReg c r)) := by
  cases n with
  | zero => exact absurd rfl hz
  | succ n => rfl

/-! ## The proof data -/

/-- On core `c`: the arrays as the region finds them; after the body each operand's buffer at its block and the
    result's at `outsAt`; the invariant `carried`; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => (outsAt m c t.val t.isLt).1
  Φ t := carried m c t.val (Nat.le_of_lt_succ t.isLt)
  q _ := fullShare
  owed _ := 0

theorem arrays_eq (c : Dev nD) (w : Fin cfg0.W) : (dats m 0 c).A w = entryAt m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_x (c : Dev nD) (t : Fin cfg0.N) : (dats m 0 c).after 0 t = blockAt m c 0 t := by dsimp only [dats]
theorem after_w (c : Dev nD) (t : Fin cfg0.N) : (dats m 0 c).after 1 t = blockAt m c 1 t := by dsimp only [dats]
theorem after_o (c : Dev nD) (t : Fin cfg0.N) : (dats m 0 c).after 2 t = (outsAt m c t.val t.isLt).1 := by dsimp only [dats]

theorem before_x (c : Dev nD) (t : Fin cfg0.N) (d) : (dats m 0 c).before 0 t d = blockAt m c 0 t :=
  staged0_of m (dats m 0 c) (arrays_eq m c 0) (after_x m c) t d
theorem before_w (c : Dev nD) (t : Fin cfg0.N) (d) : (dats m 0 c).before 1 t d = blockAt m c 1 t :=
  staged1_of m (dats m 0 c) (arrays_eq m c 1) (after_w m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (xMem t) fullShare ((dats m 0 c).before 0 t d))
    ∗ (∃ d, owns (c : Thread nD τ) (wMem t) fullShare ((dats m 0 c).before 1 t d))
    ∗ (∃ d, owns (c : Thread nD τ) (oMem t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The operands' memrefs hold their blocks; the position's parity says which branch runs; the invariant hands the
    body the accumulator (at anything at the first point, else at what the point before left) and takes it back at
    this point's contents, which the branch's pieces cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).owesAt () t.succ = (dats m 0 c).owesAt () t.castSucc from rfl]
  rw [show (dats m 0 c).Φ t.succ = carried m c (t.val + 1) t.isLt from rfl, carried_succ]
  have hN : t.val < 384 := lt_of_lt_of_eq t.isLt (show cfg0.N = 384 from N_0)
  rw [show (dats m 0 c).leavesExact 0 t = owns (c : Thread nD τ) (xMem t) fullShare ((dats m 0 c).after 0 t) from by
    unfold Dat.leavesExact; rw [live0 t], after_x]
  rw [show (dats m 0 c).leavesExact 1 t = owns (c : Thread nD τ) (wMem t) fullShare ((dats m 0 c).after 1 t) from by
    unfold Dat.leavesExact; rw [live1 t], after_w]
  by_cases h0 : t.val % 2 = 0
  · rw [Dat.leavesExact_idle (dats m 0 c) 2 t (rest2 t ((resets_iff t).mpr h0) (not_emits_of_even t h0)) (unflushed2 t ((resets_iff t).mpr h0) (not_emits_of_even t h0))]
    rw [outsAt_even m c t h0]
    unfold accAfterReset; (try dsimp only)
    by_cases hz : t.val = 0
    · rw [carried_castSucc m c t, carried_zero m c _ _ hz, rest_eq]
      iintro ⟨⟨HS0, Hg⟩, Ho, ⟨%d0, H0⟩, ⟨%d1, H1⟩, ⟨%d2, H2⟩⟩
      iapply ((runReset c (grid0.coords t) _ _ _ _ _ _ _ _ ((resets_iff t).mpr h0) (not_emits_of_even t h0) (blockAt m c 0 t) (blockAt m c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (accCoverReset c _ _ _ _ _ _ _ _ _ _ _ _ _)
        iexact Hg
      isplitl [Ho]; · iexact Ho
      isplitl [H0]; · iexact H0
      isplitl [H1]; · iexact H1
      iexists _; iexact H2
    · rw [carried_castSucc m c t, carried_pos m c _ _ hz]
      iintro ⟨⟨HS0, Hg⟩, Ho, ⟨%d0, H0⟩, ⟨%d1, H1⟩, ⟨%d2, H2⟩⟩
      iapply ((runReset c (grid0.coords t) _ _ _ _ _ _ _ _ ((resets_iff t).mpr h0) (not_emits_of_even t h0) (blockAt m c 0 t) (blockAt m c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (accCoverReset c _ _ _ _ _ _ _ _ _ _ _ _ _)
        iexact Hg
      isplitl [Ho]; · iexact Ho
      isplitl [H0]; · iexact H0
      isplitl [H1]; · iexact H1
      iexists _; iexact H2
  · rw [show (dats m 0 c).leavesExact 2 t = owns (c : Thread nD τ) (oMem t) fullShare ((dats m 0 c).after 2 t) from by
      unfold Dat.leavesExact; rw [live2 t (not_resets_of_odd t h0) (emits_of_odd t h0)], after_o]
    rw [outsAt_odd m c t h0]
    unfold outAfterEmit accAfterEmit; (try dsimp only)
    have hz : t.val ≠ 0 := fun e => h0 (by rw [e])
    rw [carried_castSucc m c t, carried_pos m c _ _ hz]
    iintro ⟨⟨HS0, Hg⟩, Ho, ⟨%d0, H0⟩, ⟨%d1, H1⟩, ⟨%d2, H2⟩⟩
    iapply ((runEmit c (grid0.coords t) _ _ _ _ _ _ _ _ (not_resets_of_odd t h0) (emits_of_odd t h0) (blockAt m c 0 t) (blockAt m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (accCoverEmit c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (outCoverEmit c _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem handed_in (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After any point the invariant gives it back: the accumulator's named contents are forgotten. -/
theorem handed_back (c : Dev nD) : (dats m 0 c).Φ (Fin.last cfg0.N) ⊢ Pipeline.ΦA spec0 c := by
  have ht : (Fin.last cfg0.N).val ≠ 0 := by rw [Fin.val_last]; have : cfg0.N = 384 := N_0; omega
  rw [show (dats m 0 c).Φ (Fin.last cfg0.N) = carried m c (Fin.last cfg0.N).val (Nat.le_of_lt_succ (Fin.last cfg0.N).isLt) from rfl, carried_pos m c _ _ ht, rest_eq]
  iintro ⟨HS0, Hg⟩
  isplitl [HS0]
  · iexists _; iexact HS0
  iexact Hg

/-! ## The run and the frame -/

set_option backward.isDefEq.respectTransparency.types false in
/-- Every weakly fair execution of @main terminates, with every array of the region at what the proof data computes
    and every other unscoped buffer as the closing reshape leaves it. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := tail_sub) (hfresh := tail_fresh) (hkeep := tail_keeps)
    (hmain := main_around m Variants.none) (hA := arrays_eq m) (hin := handed_in m) (hout := handed_back m)

/-- The program terminates, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_kept_of m ρ (dats m) (run_main m ρ)

end Cert.KernelIdeal.Around

end
-- ==== Proof.IdealPieces.lean ====
/-
  What each branch of the body leaves, as values, at any float instance.

  Write P x w acc for the body's one arithmetic step: acc plus the product of the operand blocks x and w along their
  shared second axis (into a zero accumulator). A resetting point leaves P x w 0 in the accumulator, 0 the block of
  zeros it has just stored and read back. A copying point leaves P x w acc in the accumulator, acc what the point
  before left, and the same value in the result block, which it copies from the accumulator.
-/
import proofs.«117848_j24378234372647_1_alg».proof.Proof.IdealFrame
import Idealize.ShloMosaic.Lib.Pipeline.Value

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin : (![0, 0] : Fin 2 → Nat) = fun _ => 0 := funext fun a => by fin_cases a <;> rfl

/-- At a resetting point the accumulator ends at the step from the zero block. -/
theorem accAfterReset_eq (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : resets i) (hc1 : ¬emits i)
    (x0 : Vec F S512x2048 .f32) (w0 : Vec F S1024x2048 .f32) :
    accAfterReset c i arg3 harg3 arg4 harg4 arg5 harg5 arg6 harg6 hc0 hc1 x0 w0 = k0_pay2 x0 w0 (k0_pay1 (F := F)) := by
  unfold accAfterReset
  rw [View.read_writes_eq_canon _ _ _ (accCoverReset c i arg3 harg3 arg4 harg4 arg5 harg5 arg6 harg6 hc0 hc1 x0 w0)]
  unfold runReset
  dsimp only
  sl_unfold_words
  rw [View.canon_cons_unit_zero (S := S512x1024) origin, View.readCov_unit_zero (S := S512x1024) _ origin]
  simp only [View.readAt_eq_ld, harg3.read_unread, harg4.read_unread, View.ld_unit_zero (S := S512x2048) origin,
    View.ld_unit_zero (S := S1024x2048) origin]

/-- At a copying point the result block ends at the step from what the accumulator held, -/
theorem outAfterEmit_eq (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) :
    outAfterEmit c i arg3 harg3 arg4 harg4 arg5 harg5 arg6 harg6 hc0 hc1 x0 w0 acc = k0_pay2 x0 w0 acc := by
  unfold outAfterEmit
  rw [View.read_writes_eq_canon _ _ _ (outCoverEmit c i arg3 harg3 arg4 harg4 arg5 harg5 arg6 harg6 hc0 hc1 x0 w0 acc)]
  unfold runEmit
  dsimp only
  sl_unfold_words
  rw [View.canon_unit_zero origin]
  simp only [View.readAt_eq_ld, harg3.read_unread, harg4.read_unread, harg6.read_unread, View.readCov_unit_zero (S := S512x1024) _ origin,
    View.ld_unit_zero (S := S512x2048) origin, View.ld_unit_zero (S := S1024x2048) origin, View.ld_unit_zero (S := S512x1024) origin]

/-- and so does the accumulator. -/
theorem accAfterEmit_eq (c : Dev nD) (i : grid0.Coords) (arg3 : Memref sig .tc .vmem S512x2048 .f32) (harg3 : arg3.IsWhole) (arg4 : Memref sig .tc .vmem S1024x2048 .f32) (harg4 : arg4.IsWhole) (arg5 : Memref sig .tc .vmem S512x1024 .f32) (harg5 : arg5.IsWhole) (arg6 : Memref sig .tc .vmem S512x1024 .f32) (harg6 : arg6.IsWhole) (hc0 : ¬resets i) (hc1 : emits i)
    (x0 : Vec F S512x2048 .f32) (w0 : Vec F S1024x2048 .f32) (acc : Vec F S512x1024 .f32) :
    accAfterEmit c i arg3 harg3 arg4 harg4 arg5 harg5 arg6 harg6 hc0 hc1 x0 w0 acc = k0_pay2 x0 w0 acc := by
  unfold accAfterEmit
  rw [View.read_writes_eq_canon _ _ _ (accCoverEmit c i arg3 harg3 arg4 harg4 arg5 harg5 arg6 harg6 hc0 hc1 x0 w0 acc)]
  unfold runEmit
  dsimp only
  sl_unfold_words
  rw [View.canon_unit_zero origin]
  simp only [View.readAt_eq_ld, harg3.read_unread, harg4.read_unread, harg6.read_unread,
    View.ld_unit_zero (S := S512x2048) origin, View.ld_unit_zero (S := S1024x2048) origin, View.ld_unit_zero (S := S512x1024) origin]

variable (m : (ℓ : Loc nD τ sig) → Buf (Elt F) ℓ)

/-- The block of the flattened input a point sees, at its literal shape, -/
abbrev xBlk (c : Dev nD) (t : Fin cfg0.N) : Vec F S512x2048 .f32 := blockAt m c 0 t
/-- and the block of the stacked weights. -/
abbrev wBlk (c : Dev nD) (t : Fin cfg0.N) : Vec F S1024x2048 .f32 := blockAt m c 1 t

/-- After an even position the accumulator holds the step from zero over that point's operand blocks. -/
theorem acc_even (c : Dev nD) (t : Fin cfg0.N) (h0 : t.val % 2 = 0) :
    (outsAt m c t.val t.isLt).2 = k0_pay2 (xBlk m c t) (wBlk m c t) (k0_pay1 (F := F)) := by
  rw [outsAt_even m c t h0]
  dsimp only
  exact accAfterReset_eq (F := F) c _ _ _ _ _ _ _ _ _ _ _ _ _

/-- After an odd position the result block holds the step over that point's operand blocks from what the position
    before left in the accumulator. -/
theorem out_odd (c : Dev nD) (t : Fin cfg0.N) (h0 : ¬t.val % 2 = 0) :
    (outsAt m c t.val t.isLt).1
      = k0_pay2 (xBlk m c t) (wBlk m c t) (outsAt m c (t.val - 1) (Nat.lt_of_le_of_lt (Nat.sub_le _ _) t.isLt)).2 := by
  rw [outsAt_odd m c t h0]
  dsimp only
  exact outAfterEmit_eq (F := F) c _ _ _ _ _ _ _ _ _ _ _ _ _ _

end Cert.KernelIdeal.Around

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«117848_j24378234372647_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«117848_j24378234372647_1_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.LibBlockedRowsDot.lean ====
/-
  A product with the rows of a matrix, `x · wᵀ`, taken a block of columns at a time.

  For `x : [a, K]` and `w : [N, K]`, entry `(r, q)` of `x · wᵀ` is the sum over the `K` columns of
  `x (r, k) * w (q, k)` (`prodRowT`). When `K = T * B`, cut the columns into `T` consecutive blocks of `B`:

  * `blkCol kt j` is column `j` of block `kt` as a column of the whole, number `j + B * kt`;
  * `sum_eq_sum_blocks`: a sum over all columns is the sum over the blocks of the sums inside each block, in any
    commutative monoid, so on the extended reals without any finiteness;
  * `blockDot kt` is block `kt`'s part of the entry, `prodRowT_eq_sum_blockDot` the entry as the sum of the parts,
    and `prodRowT_eq_blockDot` recognises a part in the product of two `B`-column matrices that are slices of `x`
    and `w` (of any heights: only one row of each is read);
  * `partialDot k` is the sum of the parts of blocks `0 … k`: what an accumulator that starts from the first block's
    part (`partialDot_zero`) and grows by one block per step (`partialDot_succ`) holds after step `k`, and after the
    last block the whole entry (`partialDot_last`).

  All are generic in the extents.
-/
import Mathlib.Algebra.BigOperators.Fin
import Mathlib.Data.Fintype.BigOperators
import Mathlib.Logic.Equiv.Fin.Basic
import proofs.«117848_j24378234372647_1_alg».proof.Proof.LibRowsDot

noncomputable section

namespace Cert.BlockedRows

open Idealize.ShloMosaic Idealize.ShloMosaic.ValueIdx
open Cert.DenseLayer (Mat)
open Cert.DenseRows (prodRowT)

section Blocks

variable {T B K : ℕ} (hK : T * B = K)

/-- Column `j` of block `kt`, as a column of the whole: number `j + B * kt`. -/
def blkCol (kt : Fin T) (j : Fin B) : Fin K := Fin.cast hK (finProdFinEquiv (kt, j))

theorem blkCol_val (kt : Fin T) (j : Fin B) : (blkCol hK kt j).val = j.val + B * kt.val := rfl

/-- A sum over all the columns is the sum over the blocks of the sums inside each block. -/
theorem sum_eq_sum_blocks {M : Type} [AddCommMonoid M] (f : Fin K → M) :
    ∑ i : Fin K, f i = ∑ kt : Fin T, ∑ j : Fin B, f (blkCol hK kt j) := by
  subst hK
  have h := (Equiv.sum_comp (finProdFinEquiv (m := T) (n := B)) f).symm
  rw [h, Fintype.sum_prod_type]
  rfl

variable {a N : ℕ}

/-- The part of entry `(r, q)` of `x · wᵀ` that block `kt` of the columns contributes. -/
def blockDot (x : Mat a K) (w : Mat N K) (r : Fin a) (q : Fin N) (kt : Fin T) : EReal :=
  ∑ j : Fin B, x (ix2 r (blkCol hK kt j)) * w (ix2 q (blkCol hK kt j))

/-- The whole contraction is the sum of the blocks' parts. -/
theorem prodRowT_eq_sum_blockDot (x : Mat a K) (w : Mat N K) (r : Fin a) (q : Fin N) :
    prodRowT x w r q = ∑ kt : Fin T, blockDot hK x w r q kt :=
  sum_eq_sum_blocks hK fun k => x (ix2 r k) * w (ix2 q k)

/-- A product of two `B`-column matrices whose rows `p` and `s` are block `kt` of rows `r` of `x` and `q` of `w`
    is that block's part. -/
theorem prodRowT_eq_blockDot {a' N' : ℕ} (xb : Mat a' B) (wb : Mat N' B) (x : Mat a K) (w : Mat N K)
    (p : Fin a') (s : Fin N') (r : Fin a) (q : Fin N) (kt : Fin T)
    (hx : ∀ j, xb (ix2 p j) = x (ix2 r (blkCol hK kt j))) (hw : ∀ j, wb (ix2 s j) = w (ix2 q (blkCol hK kt j))) :
    prodRowT xb wb p s = blockDot hK x w r q kt :=
  Finset.sum_congr rfl fun j _ => by rw [hx j, hw j]

/-- Block number `kt`'s part when `kt` is a block, zero past the last block. -/
def blockDotN (x : Mat a K) (w : Mat N K) (r : Fin a) (q : Fin N) (kt : ℕ) : EReal :=
  if h : kt < T then blockDot hK x w r q ⟨kt, h⟩ else 0

theorem blockDotN_of_lt (x : Mat a K) (w : Mat N K) (r : Fin a) (q : Fin N) (kt : ℕ) (h : kt < T) :
    blockDotN hK x w r q kt = blockDot hK x w r q ⟨kt, h⟩ := dif_pos h

/-- The sum of the parts of blocks `0 … k`: what an accumulator holds after step `k`. -/
def partialDot (x : Mat a K) (w : Mat N K) (r : Fin a) (q : Fin N) (k : ℕ) : EReal :=
  ∑ kt ∈ Finset.range (k + 1), blockDotN hK x w r q kt

theorem partialDot_zero (x : Mat a K) (w : Mat N K) (r : Fin a) (q : Fin N) (h : 0 < T) :
    partialDot hK x w r q 0 = blockDot hK x w r q ⟨0, h⟩ := by
  unfold partialDot
  rw [Finset.sum_range_one, blockDotN_of_lt hK x w r q 0 h]

theorem partialDot_succ (x : Mat a K) (w : Mat N K) (r : Fin a) (q : Fin N) (k : ℕ) (h : k + 1 < T) :
    partialDot hK x w r q (k + 1) = partialDot hK x w r q k + blockDot hK x w r q ⟨k + 1, h⟩ := by
  unfold partialDot
  rw [Finset.sum_range_succ _ (k + 1), blockDotN_of_lt hK x w r q (k + 1) h]

/-- After the last block the accumulator holds the whole contraction. -/
theorem partialDot_last (x : Mat a K) (w : Mat N K) (r : Fin a) (q : Fin N) (k : ℕ) (h : k + 1 = T) :
    partialDot hK x w r q k = prodRowT x w r q := by
  unfold partialDot
  rw [prodRowT_eq_sum_blockDot hK, h, Finset.sum_range]
  exact Finset.sum_congr rfl fun kt _ => blockDotN_of_lt hK x w r q kt.val kt.isLt

end Blocks

end Cert.BlockedRows

end
-- ==== Proof.IdealBlocks.lean ====
/-
  Which rows and columns of the arrays a grid point's blocks hold.

  Position t of the 384 stands for the grid point (t / 24, (t / 2) % 12, t % 2). Its block of the flattened input
  is rows 512 (t / 24) … + 511 and columns 2048 (t % 2) … + 2047; its block of the stacked weights is rows
  1024 ((t / 2) % 12) … + 1023 and the same columns; its block of the result is those rows by those rows.
-/
import proofs.«117848_j24378234372647_1_alg».proof.Proof.IdealPieces
import proofs.«117848_j24378234372647_1_alg».proof.Proof.LibBlockedRowsDot
import Idealize.ShloMosaic.Lib.Pipeline.Value
import Idealize.ShloMosaic.Lib.ValueIdx
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.ValueIdx Idealize.SL.Sem
open Idealize.ShloMosaic.Pipeline (Dat)
open Cert.DenseLayer (Mat)
open Cert.DenseRows (prodRowT)
open Cert.BlockedRows (blkCol blockDot prodRowT_eq_blockDot prodRowT_eq_sum_blockDot)

variable {F : FTy → Type} [FloatOps F]
variable (m : (ℓ : Loc nD τ sig) → Buf (Elt F) ℓ)

theorem pos_lt (t : Fin cfg0.N) : t.val < 384 := lt_of_lt_of_eq t.isLt (show cfg0.N = 384 from N_0)

/-- The block indices of the three windows at every position, in closed form. -/
theorem block_indices : ∀ t : Fin cfg0.N,
    (win0_0.index t (0 : Fin 2) = t.val / 24 ∧ win0_0.index t (1 : Fin 2) = t.val % 2)
    ∧ (win0_1.index t (0 : Fin 2) = (t.val / 2) % 12 ∧ win0_1.index t (1 : Fin 2) = t.val % 2)
    ∧ (win0_2.index t (0 : Fin 2) = t.val / 24 ∧ win0_2.index t (1 : Fin 2) = (t.val / 2) % 12) :=
  (by decide +kernel : ∀ t : Fin grid0.N, _)

/-- The row of the flattened input (and of the result) that row `p` of position `t`'s block is, -/
def rowOf (t : Fin cfg0.N) (p : Fin 512) : Fin 8192 := ⟨512 * (t.val / 24) + p.val, by have := pos_lt t; omega⟩
/-- the row of the stacked weights (the column of the result) that row `q` of its weight block is, -/
def colOf (t : Fin cfg0.N) (q : Fin 1024) : Fin 12288 := ⟨1024 * ((t.val / 2) % 12) + q.val, by have := pos_lt t; omega⟩
/-- and the column of both operands that column `d` of its blocks is. -/
def depthOf (t : Fin cfg0.N) (d : Fin 2048) : Fin 4096 := ⟨2048 * (t.val % 2) + d.val, by have := pos_lt t; omega⟩

/-- The input block read at (p, d). -/
theorem xBlk_apply (c : Dev nD) (t : Fin cfg0.N) (p : Fin 512) (d : Fin 2048) :
    xBlk m c t (ix2 p d) = entryAt m c main_v1 (ix2 (rowOf t p) (depthOf t d)) := by
  unfold xBlk blockAt
  rw [View.read_apply]
  show entryAt m c main_v1 _ = entryAt m c main_v1 _
  congr 1
  funext a
  apply Fin.ext
  match a with
  | ⟨0, _⟩ => show win0_0.index t 0 * 512 + 1 * p.val = 512 * (t.val / 24) + p.val
              rw [(block_indices t).1.1]; omega
  | ⟨1, _⟩ => show win0_0.index t 1 * 2048 + 1 * d.val = 2048 * (t.val % 2) + d.val
              rw [(block_indices t).1.2]; omega

/-- The weight block read at (q, d). -/
theorem wBlk_apply (c : Dev nD) (t : Fin cfg0.N) (q : Fin 1024) (d : Fin 2048) :
    wBlk m c t (ix2 q d) = entryAt m c main_v0 (ix2 (colOf t q) (depthOf t d)) := by
  unfold wBlk blockAt
  rw [View.read_apply]
  show entryAt m c main_v0 _ = entryAt m c main_v0 _
  congr 1
  funext a
  apply Fin.ext
  match a with
  | ⟨0, _⟩ => show win0_1.index t 0 * 1024 + 1 * q.val = 1024 * ((t.val / 2) % 12) + q.val
              rw [(block_indices t).2.1.1]; omega
  | ⟨1, _⟩ => show win0_1.index t 1 * 2048 + 1 * d.val = 2048 * (t.val % 2) + d.val
              rw [(block_indices t).2.1.2]; omega

end Cert.KernelIdeal.Around

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«117848_j24378234372647_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LibRowsDims.lean ====
/-
  Products with the rows of a matrix, `x · wᵀ`, recognised from a contraction's axis lists, and a vector program's
  spelling of one.

  For a product `[a, K] × [N, K] → [a, N]` with no batch axis, the second axis of both operands summed, and the two
  first axes carried in order, the left operand is read at `(row, k)` and the right at `(column, k)`: the record is a
  `RowsDot` (`rowsDot_of_axes`, generic in the extents; the six axis lists are equations that hold by `rfl` of any
  record written with those lists). Then a vector program's matrix product of this kind into the zero accumulator,
  at the ideal values, is `prodRowT` entry by entry, whatever the operands' float formats (`matmul_zero_rows_apply`).
-/
import Idealize.ShloMosaic.PureOps.Dims
import proofs.«117848_j24378234372647_1_alg».proof.Proof.LibRowsDot
import proofs.«117848_j24378234372647_1_alg».proof.Proof.LibPlainDot

noncomputable section

namespace Cert.DenseRows

open Idealize.ShloMosaic Idealize.ShloMosaic.ValueIdx
open Cert.DenseLayer (Mat coord_val_congr)

variable {a K N : ℕ}

/-- Dimension numbers with no batch axis that sum axis 1 of both operands and carry the left operand's axis 0 and
    then the right operand's axis 0 are those of a product with the rows of the right operand. -/
theorem rowsDot_of_axes (d : DotDims ⟨2, ![a, K]⟩ ⟨2, ![N, K]⟩ ⟨2, ![a, N]⟩)
    (hlc : d.lhsContracting = [1]) (hrc : d.rhsContracting = [1])
    (hln : d.lhsNonContracting = [0]) (hrn : d.rhsNonContracting = [0])
    (hlb : d.lhsBatch = []) (hrb : d.rhsBatch = []) : RowsDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => by
    have hb : (0 : Fin (⟨2, ![N, K]⟩ : Shape).rank) ∉ d.rhsBatch := by rw [hrb]; exact List.not_mem_nil
    have hn : (0 : Fin (⟨2, ![N, K]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])
  rhs1 := fun i q => d.rhsIdx_val_of_single hrc i q

/-- A vector program's matrix product along the second axis of both operands into the zero accumulator, at the
    ideal values, is `prodRowT` entry by entry. -/
theorem matmul_zero_rows_apply {φ₁ φ₂ : FTy} {d : DotDims ⟨2, ![a, K]⟩ ⟨2, ![N, K]⟩ ⟨2, ![a, N]⟩} (hd : RowsDot d)
    (prec : Option ContractPrecision) (x : FVec Ideal ⟨2, ![a, K]⟩ φ₁) (w : FVec Ideal ⟨2, ![N, K]⟩ φ₂)
    (i : (⟨2, ![a, N]⟩ : Shape).Idx) :
    FloatOps.matmul d prec x w (constant ⟨2, ![a, N]⟩ .f32 0x00000000#32) i = prodRowT x w (i 0) (i 1) :=
  (Ideal.matmul_constant_zero_apply d prec x w i).trans (sum_contr_eq_prodRowT hd x w i)

end Cert.DenseRows

end
-- ==== Proof.IdealStep.lean ====
/-
  The body's arithmetic, entry by entry, on the extended reals.

  The body's one step takes the operand blocks x [512, 2048] and w [1024, 2048] and the accumulator acc [512, 1024]
  and returns acc plus the product of x with the rows of w: entry (p, q) is acc (p, q) + sum over d of
  x (p, d) * w (q, d). The narrowing of both operands to a shorter float format before the product changes nothing
  at the ideal values, and the product is taken into a zero accumulator. The block the reset stores is zero.
-/
import proofs.«117848_j24378234372647_1_alg».proof.Proof.Gen.KernelIdeal.Skeleton
import proofs.«117848_j24378234372647_1_alg».proof.Proof.LibRowsDims
import Idealize.ShloMosaic.Lib.ValueIdx
import Idealize.ShloMosaic.Lib.Pipeline.Value
import Idealize.ShloMosaic.PureOps.Ideal.Laws

noncomputable section

namespace Cert.KernelIdeal.Step

open Cert.KernelIdeal Cert.KernelIdeal.Gen
open Idealize.ShloMosaic Idealize.ShloMosaic.ValueIdx
open Cert.DenseRows (prodRowT RowsDot rowsDot_of_axes matmul_zero_rows_apply)

/-- The body's product sums the second axis of both blocks and carries their first axes in order. -/
theorem sums_rows : RowsDot dot_S512x2048_S1024x2048_S512x1024_1_1_0_0_n_n :=
  rowsDot_of_axes _ rfl rfl rfl rfl rfl rfl

/-- The step at an entry: what the accumulator held there plus the row of x against the row of w. -/
theorem step_apply (x : Vec Ideal S512x2048 .f32) (w : Vec Ideal S1024x2048 .f32) (acc : Vec Ideal S512x1024 .f32)
    (p : Fin 512) (q : Fin 1024) :
    k0_pay2 (F := Ideal) x w acc (ix2 p q) = acc (ix2 p q) + prodRowT x w p q := by
  unfold k0_pay2
  simp only [shapeCast_self]
  rw [addf_apply]
  congr 1
  exact matmul_zero_rows_apply sums_rows none _ _ (ix2 p q)

/-- The block the reset stores is zero at every entry. -/
theorem zero_apply (i : S512x1024.Idx) : k0_pay1 (F := Ideal) i = 0 := by
  unfold k0_pay1
  simp only [shapeCast_self]
  rw [broadcast_apply]
  exact Ideal.ofBits_zero_f32

end Cert.KernelIdeal.Step

end
-- ==== Proof.IdealProduct.lean ====
/-
  The region's result array, at the ideal instance: the flattened input times the rows of the stacked weights.

  The result block at an odd position t holds, at (p, q), zero plus the part of the product that columns 0 … 2047
  contribute (left by position t - 1, which sees the same rows of both operands) plus the part columns 2048 … 4095
  contribute: the whole sum over the 4096 columns, a sum over the two blocks of columns. That is the block of the
  whole product the position writes back; the odd positions' blocks tile the array, so the array ends at the product.
-/
import proofs.«117848_j24378234372647_1_alg».proof.Proof.IdealBlocks
import proofs.«117848_j24378234372647_1_alg».proof.Proof.IdealStep
import Idealize.ShloMosaic.Lib.Pipeline.Value
import Idealize.ShloMosaic.Lib.ValueIdx
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.ValueIdx Idealize.SL.Sem
open Idealize.ShloMosaic.Pipeline (Dat)
open Cert.DenseLayer (Mat)
open Cert.DenseRows (prodRowT)
open Cert.BlockedRows (blkCol blockDot prodRowT_eq_blockDot prodRowT_eq_sum_blockDot)

variable (m : (ℓ : Loc nD τ sig) → Buf (Elt Ideal) ℓ)

/-- The flattened input and the stacked weights, as the region finds them. -/
abbrev xFlat (c : Dev nD) : Mat 8192 4096 := entryAt m c main_v1
abbrev wStack (c : Dev nD) : Mat 12288 4096 := entryAt m c main_v0

/-- The whole product: entry (r, n) is row r of the flattened input against row n of the stacked weights. -/
def product (c : Dev nD) : Mat 8192 12288 :=
  fun i => prodRowT (xFlat m c) (wStack m c) (i 0) (i 1)

theorem two_blocks : 2 * 2048 = 4096 := rfl

/-- Column d of position t's blocks is column d of block t % 2 of the 4096 columns. -/
theorem depthOf_eq (t : Fin cfg0.N) (d : Fin 2048) (kt : Fin 2) (h : kt.val = t.val % 2) :
    depthOf t d = blkCol two_blocks kt d := Fin.ext (by
  show 2048 * (t.val % 2) + d.val = d.val + 2048 * kt.val
  rw [h]; omega)

/-- The product of a position's two blocks at (p, q) is that block of columns' part of the whole product's entry. -/
theorem blocks_part (c : Dev nD) (t : Fin cfg0.N) (p : Fin 512) (q : Fin 1024) (kt : Fin 2) (h : kt.val = t.val % 2) :
    prodRowT (xBlk m c t) (wBlk m c t) p q = blockDot two_blocks (xFlat m c) (wStack m c) (rowOf t p) (colOf t q) kt :=
  prodRowT_eq_blockDot two_blocks (xBlk m c t) (wBlk m c t) (xFlat m c) (wStack m c) p q (rowOf t p) (colOf t q) kt
    (fun j => by rw [xBlk_apply, depthOf_eq t j kt h]) (fun j => by rw [wBlk_apply, depthOf_eq t j kt h])

/-- What an odd position leaves in the result block, entry by entry: the whole product's entry. -/
theorem out_odd_apply (c : Dev nD) (t : Fin cfg0.N) (hodd : t.val % 2 = 1) (p : Fin 512) (q : Fin 1024) :
    (outsAt m c t.val t.isLt).1 (ix2 p q) = prodRowT (xFlat m c) (wStack m c) (rowOf t p) (colOf t q) := by
  have hN := pos_lt t
  have hlt : t.val - 1 < cfg0.N := Nat.lt_of_le_of_lt (Nat.sub_le _ _) t.isLt
  let t' : Fin cfg0.N := ⟨t.val - 1, hlt⟩
  have heven : t'.val % 2 = 0 := by show (t.val - 1) % 2 = 0; omega
  have hrow : rowOf t' p = rowOf t p := Fin.ext (by show 512 * ((t.val - 1) / 24) + p.val = 512 * (t.val / 24) + p.val; omega)
  have hcol : colOf t' q = colOf t q := Fin.ext (by show 1024 * (((t.val - 1) / 2) % 12) + q.val = 1024 * ((t.val / 2) % 12) + q.val; omega)
  rw [out_odd m c t (by omega)]
  refine (Step.step_apply (xBlk m c t) (wBlk m c t) _ p q).trans ?_
  rw [show (outsAt m c (t.val - 1) hlt).2 = (outsAt m c t'.val t'.isLt).2 from rfl, acc_even m c t' heven]
  rw [Step.step_apply (xBlk m c t') (wBlk m c t') _ p q, Step.zero_apply, zero_add]
  rw [blocks_part m c t' p q 0 (by rw [heven]; rfl), blocks_part m c t p q 1 (by rw [hodd]; rfl), hrow, hcol]
  rw [prodRowT_eq_sum_blockDot two_blocks, Fin.sum_univ_two]

/-- The block an odd position writes back is that block of the whole product. -/
theorem flushed_eq (c : Dev nD) (t : Fin cfg0.N) (hf : (cfg0.win 2).flush t = true) :
    (dats m 0 c).flushed 2 t = ((cfg0.win 2).blk t).view.read (Elt Ideal) (product m c) := by
  have hodd : t.val % 2 = 1 := (flush0_2 t).mp hf
  show (cfg0.win 2).cut (grid0.coords t) ((dats m 0 c).after 2 t) = _
  rw [after_o]
  funext y
  obtain ⟨p, q, rfl⟩ : ∃ (p : Fin 512) (q : Fin 1024), y = ix2 p q := ⟨y 0, y 1, eq_ix2 y⟩
  rw [View.read_apply]
  refine (out_odd_apply m c t hodd p q).trans ?_
  unfold product
  have e0 : (((cfg0.win 2).blk t).view.emb (ix2 p q)) 0 = rowOf t p := Fin.ext (by
    show win0_2.index t 0 * 512 + 1 * p.val = 512 * (t.val / 24) + p.val
    rw [(block_indices t).2.2.1]; omega)
  have e1 : (((cfg0.win 2).blk t).view.emb (ix2 p q)) 1 = colOf t q := Fin.ext (by
    show win0_2.index t 1 * 1024 + 1 * q.val = 1024 * ((t.val / 2) % 12) + q.val
    rw [(block_indices t).2.2.2]; omega)
  rw [e0, e1]
  rfl

/-- Every entry of the result array lies in the block of one odd position. -/
theorem covered (c : Dev nD) (i : ((cfg0.win 2).arr.view.loc ((c : Thread nD τ))).2.ty.Idx) :
    ∃ t : Fin cfg0.N, (cfg0.win 2).flush t = true ∧ i ∈ ((cfg0.win 2).blk t).view.set := by
  have h0 : (i 0 : Nat) < 8192 := (i 0).isLt
  have h1 : (i 1 : Nat) < 12288 := (i 1).isLt
  have hN : cfg0.N = 384 := N_0
  let t : Fin cfg0.N := ⟨24 * ((i 0 : Nat) / 512) + 2 * ((i 1 : Nat) / 1024) + 1, by rw [hN]; omega⟩
  have htv : t.val = 24 * ((i 0 : Nat) / 512) + 2 * ((i 1 : Nat) / 1024) + 1 := rfl
  refine ⟨t, (flush0_2 t).mpr (by rw [htv]; omega), ?_⟩
  show i ∈ ((View.whole main_v2).slice (win0_2.rect t)).set
  rw [View.set_slice_whole, Rect.mem_set_unit]
  intro a
  match a with
  | ⟨0, _⟩ => show win0_2.index t 0 * 512 ≤ (i 0 : Nat) ∧ (i 0 : Nat) < win0_2.index t 0 * 512 + 512
              rw [(block_indices t).2.2.1, htv]; omega
  | ⟨1, _⟩ => show win0_2.index t 1 * 1024 ≤ (i 1 : Nat) ∧ (i 1 : Nat) < win0_2.index t 1 * 1024 + 1024
              rw [(block_indices t).2.2.2, htv]; omega

/-- The result array ends at the whole product. -/
theorem final (c : Dev nD) : (dats m 0 c).arrAt 2 cfg0.N = product m c :=
  (dats m 0 c).arrAt_eq_of_cover 2 (product m c) (flushed_eq m c) (covered c)

end Cert.KernelIdeal.Around

end
-- ==== Proof.Projection.lean ====
/-
  The fused projection as a function of arrays of extended reals.

  For an input x [4, 2048, 4096] and a weight matrix w [12288, 4096] whose rows are the output features, the result
  [4, 2048, 12288] has at (b, s, o) the sum over k of x (b, s, k) * w (o, k).
-/
import Idealize.ShloMosaic.Lib.ValueIdx
import proofs.«117848_j24378234372647_1_alg».proof.Proof.LibDenseLayer

noncomputable section

namespace Cert.Fused

open Idealize.ShloMosaic Idealize.ShloMosaic.ValueIdx
open Cert.DenseLayer (Mat)

/-- Entry (b, s, o) of the projection: row (b, s) of the input against row o of the weights. -/
def projected (x : (⟨3, ![4, 2048, 4096]⟩ : Shape).Idx → EReal) (w : Mat 12288 4096) :
    (⟨3, ![4, 2048, 12288]⟩ : Shape).Idx → EReal :=
  fun i => ∑ k : Fin 4096, x (ix3 (i 0) (i 1) k) * w (ix2 (i 2) k)

end Cert.Fused

end
-- ==== Proof.IdealResult.lean ====
/-
  The idealized kernel's whole run: its result is the fused projection of the input against the stacked weights.

  The region finds the input flattened to [8192, 4096] — row 2048 b + s is row (b, s) — and the three weight
  matrices stacked along the rows. Its result array is the flattened input times the rows of the stacked weights, and
  the closing reshape reads row 2048 b + s of it back as (b, s): entry (b, s, o) is the sum over k of
  x (b, s, k) * w (o, k).
-/
import proofs.«117848_j24378234372647_1_alg».proof.Proof.IdealProduct
import proofs.«117848_j24378234372647_1_alg».proof.Proof.Projection
import Idealize.ShloMosaic.Lib.Pipeline.Value
import Idealize.ShloMosaic.Lib.ValueIdx
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.ValueIdx Idealize.SL.Sem
open Idealize.ShloMosaic.Pipeline (Dat)
open Cert.DenseLayer (Mat)
open Cert.DenseRows (prodRowT)
open Cert.BlockedRows (blkCol blockDot prodRowT_eq_blockDot prodRowT_eq_sum_blockDot)
open Cert.Fused (projected)

variable (m : (ℓ : Loc nD τ sig) → Buf (Elt Ideal) ℓ) (ρ : Dev nD → PrngReg)

/-- The three weight matrices stacked along the rows. -/
abbrev stacked (c : Dev nD) : Mat 12288 4096 :=
  concatenate S12288x4096 0 [⟨S4096x4096, m ((c : Thread nD τ).loc main_arg1)⟩, ⟨S4096x4096, m ((c : Thread nD τ).loc main_arg2)⟩, ⟨S4096x4096, m ((c : Thread nD τ).loc main_arg3)⟩] concatenates_S4096x4096_S4096x4096_S4096x4096_S12288x4096_d0

/-- The region finds the weights stacked, -/
theorem wStack_eq (c : Dev nD) : wStack m c = stacked m c := by
  show StableHlo.after hostOps0 (fun b => m (c, b)) (Proc.devRef .tc main_v0) = _
  after_results
  rfl

/-- and the input flattened. -/
theorem xFlat_eq (c : Dev nD) :
    xFlat m c = shapeCast S8192x4096 (m ((c : Thread nD τ).loc main_arg0)) shapeCasts_S4x2048x4096_S8192x4096 := by
  show StableHlo.after hostOps0 (fun b => m (c, b)) (Proc.devRef .tc main_v1) = _
  after_results
  rfl

/-- Row 2048 b + s of the flattened input is row (b, s) of the input. -/
theorem xFlat_apply (c : Dev nD) (b : Fin 4) (s : Fin 2048) (k : Fin 4096) (h : 2048 * b.val + s.val < 8192) :
    xFlat m c (ix2 ⟨2048 * b.val + s.val, h⟩ k) = m ((c : Thread nD τ).loc main_arg0) (ix3 b s k) := by
  rw [xFlat_eq]
  refine shapeCast_apply _ _ (ix2 ⟨2048 * b.val + s.val, h⟩ k) (ix3 b s k) ?_
  rw [Shape.rowMajor_val_two, Shape.rowMajor_val_three]
  show (b.val * 2048 + s.val) * 4096 + k.val = (2048 * b.val + s.val) * 4096 + k.val
  omega

/-- The closing reshape of the product is the projection. -/
theorem reshaped_product (c : Dev nD) :
    shapeCast S4x2048x12288 (product m c) shapeCasts_S8192x12288_S4x2048x12288
      = projected (m ((c : Thread nD τ).loc main_arg0)) (stacked m c) := by
  funext j
  obtain ⟨b, s, o, rfl⟩ : ∃ (b : Fin 4) (s : Fin 2048) (o : Fin 12288), j = ix3 b s o := ⟨j 0, j 1, j 2, eq_ix3 j⟩
  have hr : 2048 * b.val + s.val < 8192 := by omega
  rw [shapeCast_apply (product m c) shapeCasts_S8192x12288_S4x2048x12288 (ix3 b s o) (ix2 ⟨2048 * b.val + s.val, hr⟩ o) (by
    rw [Shape.rowMajor_val_two, Shape.rowMajor_val_three]
    show (2048 * b.val + s.val) * 12288 + o.val = (b.val * 2048 + s.val) * 12288 + o.val
    omega)]
  unfold product prodRowT projected
  refine Finset.sum_congr rfl fun k _ => ?_
  rw [show wStack m c = stacked m c from wStack_eq m c]
  exact congrArg (· * stacked m c (ix2 o k)) (xFlat_apply m c b s k hr)

/-- What the closing reshape leaves in the result buffer. -/
theorem result_eq (c : Dev nD) :
    Pipeline.afterTail₀ cfgs (dats m) 0 (entry m) [hostOps1] c main_v3
      = projected (m ((c : Thread nD τ).loc main_arg0)) (stacked m c) := by
  unfold Pipeline.afterTail₀
  show StableHlo.after hostOps1 _ (Proc.devRef .tc main_v3) = _
  after_results
  rw [(Pipeline.withArrays_arr spec0 launch0.win.arr_inj c _ _ 2).trans (final m c)]
  exact reshaped_product m c

/-- Every weakly fair execution of @main terminates with the result at the projection and the arguments as launched. -/
theorem run : θ_run defs (onTc (τ := τ) (main (F := Ideal))) ⟨m, fun _ => 0, ρ⟩ fun r => ∀ c : Dev nD,
      r.2.mem ((c.tc : Thread nD τ).loc main_v3) = projected (m ((c : Thread nD τ).loc main_arg0)) (stacked m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
     ((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c)⟩)
    (run_main m ρ)

end Cert.KernelIdeal.Around

end
-- ==== Proof.RefValue.lean ====
/-
  The reference at the ideal instance: its result is the fused projection of the input against the three weight
  matrices stacked along the rows. The contraction sums the input's last axis against the stacked weights' second
  axis, so entry (b, s, o) reads the input at (b, s, k) and the weights at (o, k).
-/
import proofs.«117848_j24378234372647_1_alg».proof.Proof.Gen.ReferenceIdeal.Run
import proofs.«117848_j24378234372647_1_alg».proof.Proof.Gen.ReferenceIdeal.Read
import proofs.«117848_j24378234372647_1_alg».proof.Proof.Projection

noncomputable section

namespace Cert.ReferenceIdeal.RefValue

open Cert.ReferenceIdeal Cert.ReferenceIdeal.Read
open Idealize.ShloMosaic Idealize.ShloMosaic.ValueIdx Idealize.SL.Sem
open Cert.Fused (projected)

/-- The reference's result is the projection against the stacked weights. -/
theorem result_eq (x0 : (⟨S4x2048x4096, .f32⟩ : BufTy).Contents (Elt Ideal)) (x1 x2 x3 : (⟨S4096x4096, .f32⟩ : BufTy).Contents (Elt Ideal)) :
    val_main_v1 (F := Ideal) x0 x1 x2 x3 = projected x0 (val_main_v0 (F := Ideal) x1 x2 x3) := by
  funext i
  rw [val_main_v1_apply]
  unfold projected
  refine Finset.sum_congr rfl fun k _ => ?_
  have el : lidx_main_v1 i k = ix3 (i 0) (i 1) k := funext fun a => Fin.ext (by
    match a with
    | ⟨0, _⟩ => rfl
    | ⟨1, _⟩ => rfl
    | ⟨2, _⟩ => rfl)
  have er : ridx_main_v1 i k = ix2 (i 2) k := funext fun a => Fin.ext (by
    match a with
    | ⟨0, _⟩ => rfl
    | ⟨1, _⟩ => rfl)
  rw [el, er]
  rfl

end Cert.ReferenceIdeal.RefValue

end
-- ==== Proof.lean ====
/-
  The fused query, key and value projection: a tiled product against the three weight matrices stacked along the
  rows equals jnp's einsum 'bsd,od->bso' against the same stack, over the extended reals.

  The kernel flattens the input to [8192, 4096], stacks the weights to [12288, 4096], and computes the flattened
  input times the rows of the stack on a grid of 16 x 12 x 2 points: each point multiplies a [512, 2048] block of the
  input with a [1024, 2048] block of the weights along their shared axis and adds the product to a [512, 1024]
  accumulator, which is reset where the innermost coordinate is 0 and copied to the result block where it is 1. At the
  ideal values the narrowing of the operands to a shorter float format is the identity and both products are exact sums,
  so the result entry is 0 + (sum over columns 0 … 2047) + (sum over columns 2048 … 4095), which is the sum over all
  4096 columns: addition on the extended reals is commutative and associative, and no input needs to be finite. The
  reference contracts the input's last axis against the stack's second axis in one step: the same sum.

  The three programs terminate without a fault and leave their arguments alone: the two kernel programs because the
  lines around the region write only fresh buffers and every grid point's body meets the region's obligation with the
  accumulator carried from point to point; the reference because it is two lines of host operations. The
  idealization rewrote no operation, so nothing is to be preserved beyond that.
-/
import proofs.«117848_j24378234372647_1_alg».proof.Defs
import proofs.«117848_j24378234372647_1_alg».proof.Proof.Gen.Kernel
import proofs.«117848_j24378234372647_1_alg».proof.Proof.Gen.KernelIdeal
import proofs.«117848_j24378234372647_1_alg».proof.Proof.Gen.ReferenceIdeal
import proofs.«117848_j24378234372647_1_alg».proof.Proof.Gen.Pre_finite_inputs
import proofs.«117848_j24378234372647_1_alg».proof.Proof.BitsFrame
import proofs.«117848_j24378234372647_1_alg».proof.Proof.IdealResult
import proofs.«117848_j24378234372647_1_alg».proof.Proof.RefValue
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Around.frame (F := Bits) m ρ

/-- So does its idealization. -/
theorem frame_ideal : Cert.frame_KernelIdeal := fun m ρ _ => Cert.KernelIdeal.Around.frame (F := Ideal) m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the projection of the input against the stacked weights. -/
theorem algebraic : Cert.algebraic_KernelIdeal_ReferenceIdeal := by
  intro m ρ m' ρ' _ hagree
  refine ⟨fun c => Cert.Fused.projected (m ((c.tc : Thread Cert.KernelIdeal.nD Cert.KernelIdeal.τ).loc Cert.KernelIdeal.main_arg0)) (Cert.KernelIdeal.Around.stacked m c),
    Cert.KernelIdeal.Around.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
